-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S192x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S64x256 : Shape := ⟨2, ![64, 256]⟩
abbrev S1x256 : Shape := ⟨2, ![1, 256]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 22
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S1x256, .f32⟩
  | .hbm, ⟨20, _⟩ => ⟨S1x64, .f32⟩
  | .hbm, ⟨21, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  slices_S192x256_S64x256_0_0 : S192x256.Slices ![0, 0] S64x256
  slices_S192x256_S64x256_64_0 : S192x256.Slices ![64, 0] S64x256
  slices_S192x256_S64x256_128_0 : S192x256.Slices ![128, 0] S64x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x192, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.MlpSpec.lean ====
/-
  The node update, as one function.

  For one node, let `a`, `b`, `d` be its three rows of 64 numbers (the sum of its incoming edges' features, the sum of
  its outgoing edges' features, and its own features). The update is a two-layer perceptron on the 192 numbers
  `[a | b | d]`: a hidden layer of 256 units, `max(· , 0)`, and an output layer of 64 units,

      out[t] = Σ_{j<256} max( Σ_{k<192} [a|b|d][k] · W1[k,j] + β[j] , 0 ) · W[j,t] + γ[t].

  Splitting the 192 rows of `W1` into three bands of 64 rows, `U0`, `U1`, `U2`, the inner sum is the sum of three
  sums of 64 terms, one band each. That regrouping is all that separates the two programs compared: it uses only
  that addition of extended reals is commutative and associative, so no finiteness of the inputs is needed.
-/
import Idealize.ShloMosaic.PureOps.Ideal.Laws
import Idealize.ShloMosaic.Lib.ValueIdx

noncomputable section

open scoped BigOperators

namespace Cert.MlpSpec

open Idealize.ShloMosaic Idealize.ShloMosaic.ValueIdx

/-- Row `c` of the first band of the 192 rows: rows 0 … 63. -/
abbrev band0 (c : Fin 64) : Fin 192 := ⟨c.val, by omega⟩
/-- Row `c` of the second band: rows 64 … 127. -/
abbrev band1 (c : Fin 64) : Fin 192 := ⟨64 + c.val, by omega⟩
/-- Row `c` of the third band: rows 128 … 191. -/
abbrev band2 (c : Fin 64) : Fin 192 := ⟨128 + c.val, by omega⟩

/-- A sum of 192 terms is the sum of its three bands of 64, in order. -/
theorem sum_bands {M : Type*} [AddCommMonoid M] (f : Fin 192 → M) :
    ∑ k, f k = (∑ c : Fin 64, f (band0 c) + ∑ c : Fin 64, f (band1 c)) + ∑ c : Fin 64, f (band2 c) := by
  have h1 : ∑ k : Fin (128 + 64), f k
      = ∑ k : Fin 128, f (Fin.castAdd 64 k) + ∑ c : Fin 64, f (Fin.natAdd 128 c) := @Fin.sum_univ_add M _ 128 64 f
  have h2 : ∑ k : Fin (64 + 64), f (Fin.castAdd 64 k)
      = ∑ c : Fin 64, f (Fin.castAdd 64 (Fin.castAdd 64 c)) + ∑ c : Fin 64, f (Fin.castAdd 64 (Fin.natAdd 64 c)) :=
    @Fin.sum_univ_add M _ 64 64 fun k : Fin (64 + 64) => f (Fin.castAdd 64 k)
  exact h1.trans (congrArg (· + ∑ c : Fin 64, f (Fin.natAdd 128 c)) h2)

/-- The word of the float zero, read at the ideal values; both programs compare against this same word. -/
abbrev zeroWord : EReal := Ideal.ofBits .f32 0x00000000#32

/-- THE UPDATE OF ONE NODE, band by band: output unit `t` of the perceptron on the rows `a`, `b`, `d`. -/
def nodeUpdate (a b d : Fin 64 → EReal) (U0 U1 U2 : Fin 64 → Fin 256 → EReal) (β : Fin 256 → EReal)
    (W : Fin 256 → Fin 64 → EReal) (γ : Fin 64 → EReal) (t : Fin 64) : EReal :=
  (∑ j : Fin 256,
      max ((((∑ c : Fin 64, a c * U0 c j) + ∑ c : Fin 64, b c * U1 c j) + ∑ c : Fin 64, d c * U2 c j) + β j) zeroWord
        * W j t) + γ t

/-- The same update with the hidden layer written as ONE sum over the 192 numbers `[a | b | d]` against the whole
    `W1`: the two spellings agree, by `sum_bands`. -/
theorem nodeUpdate_of_whole (cat : Fin 192 → EReal) (W1 : Fin 192 → Fin 256 → EReal) (β : Fin 256 → EReal)
    (W : Fin 256 → Fin 64 → EReal) (γ : Fin 64 → EReal) (t : Fin 64) :
    (∑ j : Fin 256, max ((∑ k : Fin 192, cat k * W1 k j) + β j) zeroWord * W j t) + γ t
      = nodeUpdate (fun c => cat (band0 c)) (fun c => cat (band1 c)) (fun c => cat (band2 c))
          (fun c j => W1 (band0 c) j) (fun c j => W1 (band1 c) j) (fun c j => W1 (band2 c) j) β W γ t := by
  unfold nodeUpdate
  refine congrArg (· + γ t) (Finset.sum_congr rfl fun j _ => ?_)
  rw [sum_bands fun k => cat k * W1 k j]

/-- The update depends on its rows, bands and biases only through their entries. -/
theorem nodeUpdate_congr {a a' b b' d d' : Fin 64 → EReal} {U0 U0' U1 U1' U2 U2' : Fin 64 → Fin 256 → EReal}
    {β β' : Fin 256 → EReal} {W W' : Fin 256 → Fin 64 → EReal} {γ γ' : Fin 64 → EReal} (t : Fin 64)
    (ha : ∀ c, a c = a' c) (hb : ∀ c, b c = b' c) (hd : ∀ c, d c = d' c)
    (h0 : ∀ c j, U0 c j = U0' c j) (h1 : ∀ c j, U1 c j = U1' c j) (h2 : ∀ c j, U2 c j = U2' c j)
    (hβ : ∀ j, β j = β' j) (hW : ∀ j t, W j t = W' j t) (hγ : ∀ t, γ t = γ' t) :
    nodeUpdate a b d U0 U1 U2 β W γ t = nodeUpdate a' b' d' U0' U1' U2' β' W' γ' t := by
  obtain rfl : a = a' := funext ha
  obtain rfl : b = b' := funext hb
  obtain rfl : d = d' := funext hd
  obtain rfl : U0 = U0' := funext fun c => funext (h0 c)
  obtain rfl : U1 = U1' := funext fun c => funext (h1 c)
  obtain rfl : U2 = U2' := funext fun c => funext (h2 c)
  obtain rfl : β = β' := funext hβ
  obtain rfl : W = W' := funext fun j => funext (hW j)
  obtain rfl : γ = γ' := funext hγ
  rfl

/-- THE RESULT ARRAY: node `r`'s update from row `r` of the two aggregated edge arrays `ia`, `oa` and of the node
    features `nf`, the three bands of `W1`, and the biases as vectors. -/
def update (ia oa nf : (⟨2, ![50000, 64]⟩ : Shape).Idx → EReal) (W1 : (⟨2, ![192, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal :=
  fun i => nodeUpdate (fun c => ia (ix2 (i 0) c)) (fun c => oa (ix2 (i 0) c)) (fun c => nf (ix2 (i 0) c))
    (fun c j => W1 (ix2 (band0 c) j)) (fun c j => W1 (ix2 (band1 c) j)) (fun c j => W1 (ix2 (band2 c) j))
    (fun j => b1 (ix1 j)) (fun j t => W2 (ix2 j t)) (fun t => b2 (ix1 t)) (i 1)

/-- The result array at node `r`, output unit `t`. -/
theorem update_at (ia oa nf : (⟨2, ![50000, 64]⟩ : Shape).Idx → EReal) (W1 : (⟨2, ![192, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (r : Fin 50000) (t : Fin 64) :
    update ia oa nf W1 b1 W2 b2 (ix2 r t)
      = nodeUpdate (fun c => ia (ix2 r c)) (fun c => oa (ix2 r c)) (fun c => nf (ix2 r c))
          (fun c j => W1 (ix2 (band0 c) j)) (fun c j => W1 (ix2 (band1 c) j)) (fun c j => W1 (ix2 (band2 c) j))
          (fun j => b1 (ix1 j)) (fun j t => W2 (ix2 j t)) (fun t => b2 (ix1 t)) t := rfl

end Cert.MlpSpec

end
-- ==== Proof.KernelBlock.lean ====
/-
  One point's block of the result.

  At a grid point the kernel body holds three blocks of 5000 rows by 64 columns (the incoming sums, the outgoing sums
  and the node features of 5000 consecutive nodes), the three 64-row bands of the first weight matrix, the first bias
  as one row, the second weight matrix and the second bias as one row. It forms three products of a 5000×64 block
  with a 64×256 band, adds them, adds the bias row to every row, takes the maximum with zero, multiplies by the
  256×64 matrix and adds the second bias row. The changes of float format on the way are the identity on the ideal
  values. Read at row `p` and column `q`, every product into a zero accumulator is a plain sum over its contracted
  axis, so the entry is the update of the node in row `p`, output unit `q`.
-/
import proofs.«119274_j71425306132748_1_alg».proof.Proof.Gen.KernelIdeal.Skeleton
import proofs.«119274_j71425306132748_1_alg».proof.Proof.LibMatmulAt
import proofs.«119274_j71425306132748_1_alg».proof.Proof.MlpSpec
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.MlpSpec

/-- THE BODY'S STORED VALUE AT AN ENTRY: row `p`, column `q` of what the body stores is the node update of row `p`
    of the three row blocks against the three bands, the bias rows read at their one row. The outer product and the
    second bias first; then, hidden unit by hidden unit, the three inner products and the first bias. -/
theorem pay_at (x0 x1 x2 : Vec Ideal S5000x64 .f32) (x3 x4 x5 : Vec Ideal S64x256 .f32) (x6 : Vec Ideal S1x256 .f32)
    (x7 : Vec Ideal S256x64 .f32) (x8 : Vec Ideal S1x64 .f32) (p : Fin 5000) (q : Fin 64) :
    k0_pay1 x0 x1 x2 x3 x4 x5 x6 x7 x8 (ix2 p q)
      = nodeUpdate (fun c => x0 (ix2 p c)) (fun c => x1 (ix2 p c)) (fun c => x2 (ix2 p c))
          (fun c j => x3 (ix2 c j)) (fun c j => x4 (ix2 c j)) (fun c j => x5 (ix2 c j))
          (fun j => x6 (ix2 (0 : Fin 1) j)) (fun j t => x7 (ix2 j t)) (fun t => x8 (ix2 (0 : Fin 1) t)) q := by
  unfold k0_pay1 nodeUpdate
  simp only [shapeCast_self, Idealize.ShloMosaic.matmul]
  rw [addf_apply, LibMatmulAt.matmul_zero_at dot_S5000x256_S256x64_S5000x64_1_0_0_1_n_n rfl rfl rfl rfl rfl rfl,
    broadcastTo_1b_ab_apply]
  refine congrArg (· + x8 (ix2 (0 : Fin 1) q)) (Finset.sum_congr rfl fun j _ => ?_)
  rw [truncf_apply, truncf_apply, maximumf_apply, addf_apply, addf_apply, addf_apply,
    LibMatmulAt.matmul_zero_at dot_S5000x64_S64x256_S5000x256_1_0_0_1_n_n rfl rfl rfl rfl rfl rfl,
    LibMatmulAt.matmul_zero_at dot_S5000x64_S64x256_S5000x256_1_0_0_1_n_n rfl rfl rfl rfl rfl rfl,
    LibMatmulAt.matmul_zero_at dot_S5000x64_S64x256_S5000x256_1_0_0_1_n_n rfl rfl rfl rfl rfl rfl,
    broadcastTo_1b_ab_apply, broadcast_apply]
  rfl

end Cert.KernelIdeal.Block

end
-- ==== Proof.KernelArrays.lean ====
/-
  The arrays the kernel region finds.

  Before the region the program computes, from the launch arguments: the per-node sums of the edge features over
  incoming edges and over outgoing edges (two scatter-additions into zero arrays, indexed by the receivers and by the
  senders); the three bands of 64 rows of the first weight matrix (rows 0–63, 64–127, 128–191); and the two biases
  recast from a vector to one row. The node features and the second weight matrix reach the region as launched.
  Here each of these arrays is named, and each band and each bias row is read at an entry of the launch argument.
-/
import proofs.«119274_j71425306132748_1_alg».proof.Proof.Gen.KernelIdeal.Frame
import proofs.«119274_j71425306132748_1_alg».proof.Proof.MlpSpec
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.MlpSpec

variable (m : (ℓ : Loc nD τ sig) → Buf (Elt Ideal) ℓ)

/-- The sum, per node, of the features of the edges that arrive at it: the edge features scattered and added into
    a zero array at the receivers. -/
abbrev inSum (c : Dev nD) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (m ((c : Thread nD τ).loc main_arg3)))
    (m ((c : Thread nD τ).loc main_arg1))

/-- The sum, per node, of the features of the edges that leave it: the same scatter-addition at the senders. -/
abbrev outSum (c : Dev nD) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (m ((c : Thread nD τ).loc main_arg2)))
    (m ((c : Thread nD τ).loc main_arg1))

/-- The region finds the incoming sums in the first window's array … -/
theorem found_in (c : Dev nD) : (V m c main_v2 : S50000x64.Idx → EReal) = inSum m c := by
  dsimp only [Gen.V, Gen.hostOps0]
  after_results <;> rfl

/-- … and the outgoing sums in the second's. -/
theorem found_out (c : Dev nD) : (V m c main_v5 : S50000x64.Idx → EReal) = outSum m c := by
  dsimp only [Gen.V, Gen.hostOps0]
  after_results <;> rfl

/-- The three bands of the first weight matrix, as cut before the region. -/
theorem found_band0 (c : Dev nD) : (V m c main_v6 : S64x256.Idx → EReal)
    = extractStridedSlice S64x256 ![0, 0] (m ((c : Thread nD τ).loc main_arg4)) slices_S192x256_S64x256_0_0 := by
  dsimp only [Gen.V, Gen.hostOps0]
  after_results <;> rfl
theorem found_band1 (c : Dev nD) : (V m c main_v7 : S64x256.Idx → EReal)
    = extractStridedSlice S64x256 ![64, 0] (m ((c : Thread nD τ).loc main_arg4)) slices_S192x256_S64x256_64_0 := by
  dsimp only [Gen.V, Gen.hostOps0]
  after_results <;> rfl
theorem found_band2 (c : Dev nD) : (V m c main_v8 : S64x256.Idx → EReal)
    = extractStridedSlice S64x256 ![128, 0] (m ((c : Thread nD τ).loc main_arg4)) slices_S192x256_S64x256_128_0 := by
  dsimp only [Gen.V, Gen.hostOps0]
  after_results <;> rfl

/-- The two biases, each recast to one row. -/
theorem found_bias1 (c : Dev nD) : (V m c main_v9 : S1x256.Idx → EReal)
    = shapeCast S1x256 (m ((c : Thread nD τ).loc main_arg5)) shapeCasts_S256_S1x256 := by
  dsimp only [Gen.V, Gen.hostOps0]
  after_results <;> rfl
theorem found_bias2 (c : Dev nD) : (V m c main_v10 : S1x64.Idx → EReal)
    = shapeCast S1x64 (m ((c : Thread nD τ).loc main_arg7)) shapeCasts_S64_S1x64 := by
  dsimp only [Gen.V, Gen.hostOps0]
  after_results <;> rfl

/-- Entry `(k, j)` of band 0 is entry `(k, j)` of the whole matrix; of band 1, entry `(64 + k, j)`; of band 2,
    entry `(128 + k, j)`. -/
theorem band0_at (c : Dev nD) (k : Fin 64) (j : Fin 256) : (V m c main_v6 : S64x256.Idx → EReal) (ix2 k j)
    = (m ((c : Thread nD τ).loc main_arg4) : S192x256.Idx → EReal) (ix2 (band0 k) j) :=
  (congrFun (found_band0 m c) (ix2 k j)).trans (slice2_axis0_apply 0 _ _ k j (band0 k) (Nat.zero_add _).symm)
theorem band1_at (c : Dev nD) (k : Fin 64) (j : Fin 256) : (V m c main_v7 : S64x256.Idx → EReal) (ix2 k j)
    = (m ((c : Thread nD τ).loc main_arg4) : S192x256.Idx → EReal) (ix2 (band1 k) j) :=
  (congrFun (found_band1 m c) (ix2 k j)).trans (slice2_axis0_apply 64 _ _ k j (band1 k) rfl)
theorem band2_at (c : Dev nD) (k : Fin 64) (j : Fin 256) : (V m c main_v8 : S64x256.Idx → EReal) (ix2 k j)
    = (m ((c : Thread nD τ).loc main_arg4) : S192x256.Idx → EReal) (ix2 (band2 k) j) :=
  (congrFun (found_band2 m c) (ix2 k j)).trans (slice2_axis0_apply 128 _ _ k j (band2 k) rfl)

/-- Column `j` of a bias row is entry `j` of the bias vector. -/
theorem bias1_at (c : Dev nD) (j : Fin 256) : (V m c main_v9 : S1x256.Idx → EReal) (ix2 (0 : Fin 1) j)
    = (m ((c : Thread nD τ).loc main_arg5) : S256.Idx → EReal) (ix1 j) :=
  (congrFun (found_bias1 m c) (ix2 (0 : Fin 1) j)).trans (shapeCast_a_1a_apply _ _ 0 j)
theorem bias2_at (c : Dev nD) (t : Fin 64) : (V m c main_v10 : S1x64.Idx → EReal) (ix2 (0 : Fin 1) t)
    = (m ((c : Thread nD τ).loc main_arg7) : S64.Idx → EReal) (ix1 t) :=
  (congrFun (found_bias2 m c) (ix2 (0 : Fin 1) t)).trans (shapeCast_a_1a_apply _ _ 0 t)

end Cert.KernelIdeal.Arrays

end
-- ==== Proof.KernelValue.lean ====
/-
  The kernel's result array.

  The kernel runs over ten grid points; at point `t` it reads rows `5000 t … 5000 t + 4999` of the incoming sums, of the
  outgoing sums and of the node features, the whole of the three weight bands, of the two bias rows and of the second
  weight matrix, and writes rows `5000 t … 5000 t + 4999` of the result. Each input block, read at an entry, is its
  array at the place the block's index map puts it; with the body's value at an entry (KernelBlock) that makes what
  point `t` writes back block `t` of ONE function of the launch arguments, `result`: the update of every node.
  The ten blocks of 5000 rows fill the 50000 rows, so after the run the result array is `result`.
-/
import proofs.«119274_j71425306132748_1_alg».proof.Proof.Gen.KernelIdeal.Value
import proofs.«119274_j71425306132748_1_alg».proof.Proof.KernelBlock
import proofs.«119274_j71425306132748_1_alg».proof.Proof.KernelArrays
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.MlpSpec Cert.KernelIdeal.Arrays

variable (m : (ℓ : Loc nD τ sig) → Buf (Elt Ideal) ℓ) (ρ : Dev nD → PrngReg)

/-- The zero offsets of every access of the body, as a constant function. -/
theorem hz : (![0, 0] : Fin 2 → Nat) = fun _ => 0 := funext fun a => by fin_cases a <;> rfl

/-- The printed index maps, decided over the ten grid points: the three row windows and the output window take block
    `(t, 0)` at point `t` … -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- … and the six whole-array windows take block `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- There are ten grid points. -/
theorem point_lt (t : Fin cfg0.N) : t.val < 10 := lt_of_lt_of_eq t.isLt N_0

/-- THE NODE a block row stands for: row `p` of the block of point `t` is node `5000 t + p`. -/
def rowOf (t : Fin cfg0.N) (p : Fin 5000) : Fin 50000 :=
  ⟨5000 * t.val + p.val, by have := point_lt t; have := p.isLt; omega⟩

/-! ## Where a block's entry sits in its array -/

theorem emb0 (t : Fin cfg0.N) (p : Fin 5000) (e : Fin 64) :
    ((cfg0.win 0).blk t).view.emb (ix2 p e) = (ix2 (rowOf t p) e : S50000x64.Idx) := by
  obtain ⟨⟨a0, a1⟩, ⟨b0, b1⟩, ⟨d0, d1⟩, ⟨o0, o1⟩⟩ := idx_rows t
  funext a
  apply Fin.ext
  match a with
  | ⟨0, _⟩ => show win0_0.index t (0 : Fin 2) * 5000 + 1 * p.val = 5000 * t.val + p.val; omega
  | ⟨1, _⟩ => show win0_0.index t (1 : Fin 2) * 64 + 1 * e.val = e.val; omega
theorem emb1 (t : Fin cfg0.N) (p : Fin 5000) (e : Fin 64) :
    ((cfg0.win 1).blk t).view.emb (ix2 p e) = (ix2 (rowOf t p) e : S50000x64.Idx) := by
  obtain ⟨⟨a0, a1⟩, ⟨b0, b1⟩, ⟨d0, d1⟩, ⟨o0, o1⟩⟩ := idx_rows t
  funext a
  apply Fin.ext
  match a with
  | ⟨0, _⟩ => show win0_1.index t (0 : Fin 2) * 5000 + 1 * p.val = 5000 * t.val + p.val; omega
  | ⟨1, _⟩ => show win0_1.index t (1 : Fin 2) * 64 + 1 * e.val = e.val; omega
theorem emb2 (t : Fin cfg0.N) (p : Fin 5000) (e : Fin 64) :
    ((cfg0.win 2).blk t).view.emb (ix2 p e) = (ix2 (rowOf t p) e : S50000x64.Idx) := by
  obtain ⟨⟨a0, a1⟩, ⟨b0, b1⟩, ⟨d0, d1⟩, ⟨o0, o1⟩⟩ := idx_rows t
  funext a
  apply Fin.ext
  match a with
  | ⟨0, _⟩ => show win0_2.index t (0 : Fin 2) * 5000 + 1 * p.val = 5000 * t.val + p.val; omega
  | ⟨1, _⟩ => show win0_2.index t (1 : Fin 2) * 64 + 1 * e.val = e.val; omega
theorem emb9 (t : Fin cfg0.N) (p : Fin 5000) (e : Fin 64) :
    ((cfg0.win 9).blk t).view.emb (ix2 p e) = (ix2 (rowOf t p) e : S50000x64.Idx) := by
  obtain ⟨⟨a0, a1⟩, ⟨b0, b1⟩, ⟨d0, d1⟩, ⟨o0, o1⟩⟩ := idx_rows t
  funext a
  apply Fin.ext
  match a with
  | ⟨0, _⟩ => show win0_9.index t (0 : Fin 2) * 5000 + 1 * p.val = 5000 * t.val + p.val; omega
  | ⟨1, _⟩ => show win0_9.index t (1 : Fin 2) * 64 + 1 * e.val = e.val; omega
theorem emb3 (t : Fin cfg0.N) (k : Fin 64) (j : Fin 256) :
    ((cfg0.win 3).blk t).view.emb (ix2 k j) = (ix2 k j : S64x256.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_3.index t (0 : Fin 2) * 64 + 1 * k.val = k.val; omega
  | ⟨1, _⟩ => show win0_3.index t (1 : Fin 2) * 256 + 1 * j.val = j.val; omega
theorem emb4 (t : Fin cfg0.N) (k : Fin 64) (j : Fin 256) :
    ((cfg0.win 4).blk t).view.emb (ix2 k j) = (ix2 k j : S64x256.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_4.index t (0 : Fin 2) * 64 + 1 * k.val = k.val; omega
  | ⟨1, _⟩ => show win0_4.index t (1 : Fin 2) * 256 + 1 * j.val = j.val; omega
theorem emb5 (t : Fin cfg0.N) (k : Fin 64) (j : Fin 256) :
    ((cfg0.win 5).blk t).view.emb (ix2 k j) = (ix2 k j : S64x256.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_5.index t (0 : Fin 2) * 64 + 1 * k.val = k.val; omega
  | ⟨1, _⟩ => show win0_5.index t (1 : Fin 2) * 256 + 1 * j.val = j.val; omega
theorem emb6 (t : Fin cfg0.N) (k : Fin 1) (j : Fin 256) :
    ((cfg0.win 6).blk t).view.emb (ix2 k j) = (ix2 k j : S1x256.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_6.index t (0 : Fin 2) * 1 + 1 * k.val = k.val; omega
  | ⟨1, _⟩ => show win0_6.index t (1 : Fin 2) * 256 + 1 * j.val = j.val; omega
theorem emb7 (t : Fin cfg0.N) (k : Fin 256) (j : Fin 64) :
    ((cfg0.win 7).blk t).view.emb (ix2 k j) = (ix2 k j : S256x64.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_7.index t (0 : Fin 2) * 256 + 1 * k.val = k.val; omega
  | ⟨1, _⟩ => show win0_7.index t (1 : Fin 2) * 64 + 1 * j.val = j.val; omega
theorem emb8 (t : Fin cfg0.N) (k : Fin 1) (j : Fin 64) :
    ((cfg0.win 8).blk t).view.emb (ix2 k j) = (ix2 k j : S1x64.Idx) := by
  obtain ⟨⟨a0, a1⟩, ⟨b0, b1⟩, ⟨d0, d1⟩, ⟨e0, e1⟩, ⟨f0, f1⟩, ⟨g0, g1⟩⟩ := idx_whole t
  funext a
  apply Fin.ext
  match a with
  | ⟨0, _⟩ => show win0_8.index t (0 : Fin 2) * 1 + 1 * k.val = k.val; omega
  | ⟨1, _⟩ => show win0_8.index t (1 : Fin 2) * 64 + 1 * j.val = j.val; omega

/-! ## Each input block read at an entry: the window's array, as the region finds it, at that place -/

theorem read0 (c : Dev nD) (t : Fin cfg0.N) (p : Fin 5000) (e : Fin 64) :
    (iblk m c 0 t : Vec Ideal S5000x64 .f32) (ix2 p e) = (V m c main_v2 : S50000x64.Idx → EReal) (ix2 (rowOf t p) e) := by
  unfold iblk
  rw [View.read_apply, emb0]
  exact cast_eq _ _
theorem read1 (c : Dev nD) (t : Fin cfg0.N) (p : Fin 5000) (e : Fin 64) :
    (iblk m c 1 t : Vec Ideal S5000x64 .f32) (ix2 p e) = (V m c main_v5 : S50000x64.Idx → EReal) (ix2 (rowOf t p) e) := by
  unfold iblk
  rw [View.read_apply, emb1]
  exact cast_eq _ _
theorem read2 (c : Dev nD) (t : Fin cfg0.N) (p : Fin 5000) (e : Fin 64) :
    (iblk m c 2 t : Vec Ideal S5000x64 .f32) (ix2 p e) = (V m c main_arg0 : S50000x64.Idx → EReal) (ix2 (rowOf t p) e) := by
  unfold iblk
  rw [View.read_apply, emb2]
  exact cast_eq _ _
theorem read3 (c : Dev nD) (t : Fin cfg0.N) (k : Fin 64) (j : Fin 256) :
    (iblk m c 3 t : Vec Ideal S64x256 .f32) (ix2 k j) = (V m c main_v6 : S64x256.Idx → EReal) (ix2 k j) := by
  unfold iblk
  rw [View.read_apply, emb3]
  exact cast_eq _ _
theorem read4 (c : Dev nD) (t : Fin cfg0.N) (k : Fin 64) (j : Fin 256) :
    (iblk m c 4 t : Vec Ideal S64x256 .f32) (ix2 k j) = (V m c main_v7 : S64x256.Idx → EReal) (ix2 k j) := by
  unfold iblk
  rw [View.read_apply, emb4]
  exact cast_eq _ _
theorem read5 (c : Dev nD) (t : Fin cfg0.N) (k : Fin 64) (j : Fin 256) :
    (iblk m c 5 t : Vec Ideal S64x256 .f32) (ix2 k j) = (V m c main_v8 : S64x256.Idx → EReal) (ix2 k j) := by
  unfold iblk
  rw [View.read_apply, emb5]
  exact cast_eq _ _
theorem read6 (c : Dev nD) (t : Fin cfg0.N) (k : Fin 1) (j : Fin 256) :
    (iblk m c 6 t : Vec Ideal S1x256 .f32) (ix2 k j) = (V m c main_v9 : S1x256.Idx → EReal) (ix2 k j) := by
  unfold iblk
  rw [View.read_apply, emb6]
  exact cast_eq _ _
theorem read7 (c : Dev nD) (t : Fin cfg0.N) (k : Fin 256) (j : Fin 64) :
    (iblk m c 7 t : Vec Ideal S256x64 .f32) (ix2 k j) = (V m c main_arg6 : S256x64.Idx → EReal) (ix2 k j) := by
  unfold iblk
  rw [View.read_apply, emb7]
  exact cast_eq _ _
theorem read8 (c : Dev nD) (t : Fin cfg0.N) (k : Fin 1) (j : Fin 64) :
    (iblk m c 8 t : Vec Ideal S1x64 .f32) (ix2 k j) = (V m c main_v10 : S1x64.Idx → EReal) (ix2 k j) := by
  unfold iblk
  rw [View.read_apply, emb8]
  exact cast_eq _ _

/-! ## The result array -/

/-- THE RESULT: the update of every node from the two edge sums, the node features and the weights, all as launched. -/
abbrev result (c : Dev nD) : S50000x64.Idx → EReal :=
  update (inSum m c) (outSum m c) (m ((c : Thread nD τ).loc main_arg0)) (m ((c : Thread nD τ).loc main_arg4))
    (m ((c : Thread nD τ).loc main_arg5)) (m ((c : Thread nD τ).loc main_arg6)) (m ((c : Thread nD τ).loc main_arg7))

/-- WHAT POINT `t` WRITES BACK is block `t` of the result: row `p`, column `q` of the stored value is the update of node
    `5000 t + p` at output unit `q` — the body's value at that entry (`Block.pay_at`), each of its nine blocks read where
    it sits in the launch arguments. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  funext y
  obtain ⟨p, q, rfl⟩ : ∃ (p : Fin 5000) (q : Fin 64), y = ix2 p q := ⟨y 0, y 1, eq_ix2 (n0 := 5000) (n1 := 64) y⟩
  show k0_pay1 (iblk m c 0 t) (iblk m c 1 t) (iblk m c 2 t) (iblk m c 3 t) (iblk m c 4 t) (iblk m c 5 t) (iblk m c 6 t)
    (iblk m c 7 t) (iblk m c 8 t) (ix2 p q) = _
  rw [View.read_apply, emb9]
  refine ((Block.pay_at (iblk m c 0 t) (iblk m c 1 t) (iblk m c 2 t) (iblk m c 3 t) (iblk m c 4 t) (iblk m c 5 t)
    (iblk m c 6 t) (iblk m c 7 t) (iblk m c 8 t) p q).trans ?_).trans (cast_eq _ _).symm
  refine Eq.trans ?_ (update_at (inSum m c) (outSum m c) (m ((c : Thread nD τ).loc main_arg0)) (m ((c : Thread nD τ).loc main_arg4))
    (m ((c : Thread nD τ).loc main_arg5)) (m ((c : Thread nD τ).loc main_arg6)) (m ((c : Thread nD τ).loc main_arg7)) (rowOf t p) q).symm
  exact nodeUpdate_congr q
    (fun e => (read0 m c t p e).trans (congrFun (found_in m c) _))
    (fun e => (read1 m c t p e).trans (congrFun (found_out m c) _))
    (fun e => (read2 m c t p e).trans (congrFun (V_main_arg0 m c) _))
    (fun k j => (read3 m c t k j).trans (band0_at m c k j))
    (fun k j => (read4 m c t k j).trans (band1_at m c k j))
    (fun k j => (read5 m c t k j).trans (band2_at m c k j))
    (fun j => (read6 m c t 0 j).trans (bias1_at m c j))
    (fun j u => (read7 m c t j u).trans (congrFun (V_main_arg6 m c) _))
    (fun u => (read8 m c t 0 u).trans (bias2_at m c u))

/-- An index of the result array is in point `t`'s block iff each coordinate is in the block's range on its axis. -/
theorem mem_blk (t : Fin cfg0.N) (i : S50000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v11).slice (win0_9.rect t)).set ↔ _
  rw [View.set_slice_whole, Rect.mem_set_unit]
  exact Iff.rfl

/-- THE BLOCKS FILL THE ARRAY: node `r` is in the block of point `r / 5000`. -/
theorem cover (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, o0, o1⟩ := idx_rows t
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- So the result array ends holding `result`. -/
theorem final (c : Dev nD) : (dats m 0 c).arrAt 9 cfg0.N = result m c :=
  (dats m 0 c).arrAt_eq_of_cover 9 (result m c) (fun t _ => flushed_eq m c t) cover

/-- THE RUN, READ: every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Cert.KernelIdeal.Value.run_blocks m ρ)

end Cert.KernelIdeal.Whole

end
-- ==== Proof.RefValue.lean ====
/-
  The reference, stage by stage, is the node update.

  The reference joins the incoming sums, the outgoing sums and the node features side by side into 192 columns,
  multiplies by the whole first weight matrix, adds the first bias to every row, takes the maximum with zero, multiplies
  by the second weight matrix and adds the second bias. Read at node `r` and output unit `t` through the generated
  stage lemmas, that is the perceptron on the 192 numbers of node `r`; band by band it is `MlpSpec.update`.
-/
import proofs.«119274_j71425306132748_1_alg».proof.Proof.Gen.ReferenceIdeal.Read
import proofs.«119274_j71425306132748_1_alg».proof.Proof.MlpSpec
import Idealize.ShloMosaic.Lib.Pipeline.Value
import Idealize.ShloMosaic.Lib.ValueIdx

noncomputable section

open scoped BigOperators

namespace Cert.ReferenceIdeal.Whole

open Cert.ReferenceIdeal Cert.ReferenceIdeal.Gen Cert.ReferenceIdeal.Read Idealize.ShloMosaic Idealize.ShloMosaic.ValueIdx Cert.MlpSpec

/-- The 192 columns of the joined array are three bands of 64: column `c` of the first band is column `c` of the first
    piece, of the second band column `c` of the second piece, of the third band column `c` of the third piece. -/
theorem cat_band0 (A B D : S50000x64.Idx → EReal) (h : Shape.Concatenates [S50000x64, S50000x64, S50000x64] S50000x192 1)
    (r : Fin 50000) (c : Fin 64) :
    concatenate S50000x192 1 [⟨S50000x64, A⟩, ⟨S50000x64, B⟩, ⟨S50000x64, D⟩] h (ix2 r (band0 c)) = A (ix2 r c) :=
  concatenate_apply_piece (t := S50000x192) (1 : Fin 2) [⟨S50000x64, A⟩, ⟨S50000x64, B⟩, ⟨S50000x64, D⟩] h (ix2 r (band0 c)) 0 (by show (0 : ℕ) < 3; omega) S50000x64 A rfl rfl 0 rfl (ix2 r c)
    (fun b hb => by
      match b with
      | ⟨0, _⟩ => rfl
      | ⟨1, _⟩ => exact absurd rfl hb)
    (Nat.zero_add _)

theorem cat_band1 (A B D : S50000x64.Idx → EReal) (h : Shape.Concatenates [S50000x64, S50000x64, S50000x64] S50000x192 1)
    (r : Fin 50000) (c : Fin 64) :
    concatenate S50000x192 1 [⟨S50000x64, A⟩, ⟨S50000x64, B⟩, ⟨S50000x64, D⟩] h (ix2 r (band1 c)) = B (ix2 r c) :=
  concatenate_apply_piece (t := S50000x192) (1 : Fin 2) [⟨S50000x64, A⟩, ⟨S50000x64, B⟩, ⟨S50000x64, D⟩] h (ix2 r (band1 c)) 1 (by show (1 : ℕ) < 3; omega) S50000x64 B rfl rfl 64 rfl (ix2 r c)
    (fun b hb => by
      match b with
      | ⟨0, _⟩ => rfl
      | ⟨1, _⟩ => exact absurd rfl hb)
    rfl

theorem cat_band2 (A B D : S50000x64.Idx → EReal) (h : Shape.Concatenates [S50000x64, S50000x64, S50000x64] S50000x192 1)
    (r : Fin 50000) (c : Fin 64) :
    concatenate S50000x192 1 [⟨S50000x64, A⟩, ⟨S50000x64, B⟩, ⟨S50000x64, D⟩] h (ix2 r (band2 c)) = D (ix2 r c) :=
  concatenate_apply_piece (t := S50000x192) (1 : Fin 2) [⟨S50000x64, A⟩, ⟨S50000x64, B⟩, ⟨S50000x64, D⟩] h (ix2 r (band2 c)) 2 (by show (2 : ℕ) < 3; omega) S50000x64 D rfl rfl 128 rfl (ix2 r c)
    (fun b hb => by
      match b with
      | ⟨0, _⟩ => rfl
      | ⟨1, _⟩ => exact absurd rfl hb)
    rfl

/-! The index functions the stage lemmas are stated with, on an index given by its coordinates. -/

theorem l12 (r : Fin 50000) (t : Fin 64) (k : Fin 256) : lidx_main_v12 (ix2 r t) k = ix2 r k :=
  funext fun a => Fin.ext (by match a with | ⟨0, _⟩ => rfl | ⟨1, _⟩ => rfl)
theorem r12 (r : Fin 50000) (t : Fin 64) (k : Fin 256) : ridx_main_v12 (ix2 r t) k = ix2 k t :=
  funext fun a => Fin.ext (by match a with | ⟨0, _⟩ => rfl | ⟨1, _⟩ => rfl)
theorem i14 (r : Fin 50000) (t : Fin 64) : idx_main_v14 (ix2 r t) = ix2 (0 : Fin 1) t :=
  funext fun a => Fin.ext (by match a with | ⟨0, _⟩ => rfl | ⟨1, _⟩ => rfl)
theorem i13 (t : Fin 64) : idx_main_v13 (ix2 (0 : Fin 1) t) = ix1 t :=
  funext fun a => Fin.ext (by match a with | ⟨0, _⟩ => rfl)
theorem l7 (r : Fin 50000) (j : Fin 256) (k : Fin 192) : lidx_main_v7 (ix2 r j) k = ix2 r k :=
  funext fun a => Fin.ext (by match a with | ⟨0, _⟩ => rfl | ⟨1, _⟩ => rfl)
theorem r7 (r : Fin 50000) (j : Fin 256) (k : Fin 192) : ridx_main_v7 (ix2 r j) k = ix2 k j :=
  funext fun a => Fin.ext (by match a with | ⟨0, _⟩ => rfl | ⟨1, _⟩ => rfl)
theorem i9 (r : Fin 50000) (j : Fin 256) : idx_main_v9 (ix2 r j) = ix2 (0 : Fin 1) j :=
  funext fun a => Fin.ext (by match a with | ⟨0, _⟩ => rfl | ⟨1, _⟩ => rfl)
theorem i8 (j : Fin 256) : idx_main_v8 (ix2 (0 : Fin 1) j) = ix1 j :=
  funext fun a => Fin.ext (by match a with | ⟨0, _⟩ => rfl)

/-- HIDDEN UNIT `j` OF NODE `r`: the row of the joined array against column `j` of the first weight matrix — one sum of
    192 products —, plus the bias, against the zero word under the maximum. -/
theorem hidden_at (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S192x256, .f32⟩ : BufTy).Contents (Elt Ideal))
    (x5 : (⟨S256, .f32⟩ : BufTy).Contents (Elt Ideal)) (r : Fin 50000) (j : Fin 256) :
    val_main_v11 (F := Ideal) x0 x1 x2 x3 x4 x5 (ix2 r j)
      = max ((∑ k : Fin 192, val_main_v6 (F := Ideal) x0 x1 x2 x3 (ix2 r k) * x4 (ix2 k j)) + x5 (ix1 j)) zeroWord := by
  rw [val_main_v11_apply, val_main_v10_apply, val_main_v7_apply, val_main_v9_apply, val_main_v8_apply,
    val_main_call0_v0_apply, val_main_call0_cst_apply, i9, i8]
  simp only [l7, r7]
  rfl

/-- THE REFERENCE'S RESULT IS THE UPDATE of the two scatter stages and the arguments: its output unit is the sum over
    the 256 hidden units against the second weight matrix plus the second bias; the hidden layer's one sum of 192
    terms is the sum of its three bands (`nodeUpdate_of_whole`), and each band of the joined array is one piece. -/
theorem ref_is_update (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S192x256, .f32⟩ : BufTy).Contents (Elt Ideal))
    (x5 : (⟨S256, .f32⟩ : BufTy).Contents (Elt Ideal)) (x6 : (⟨S256x64, .f32⟩ : BufTy).Contents (Elt Ideal))
    (x7 : (⟨S64, .f32⟩ : BufTy).Contents (Elt Ideal)) :
    val_main_v15 (F := Ideal) x0 x1 x2 x3 x4 x5 x6 x7
      = update (val_main_v2 (F := Ideal) x1 x3) (val_main_v5 (F := Ideal) x1 x2) x0 x4 x5 x6 x7 := by
  funext i
  obtain ⟨r, t, rfl⟩ : ∃ (r : Fin 50000) (t : Fin 64), i = ix2 r t := ⟨i 0, i 1, eq_ix2 i⟩
  rw [val_main_v15_apply, val_main_v12_apply, val_main_v14_apply, val_main_v13_apply, i14, i13]
  simp only [l12, r12, hidden_at]
  refine (nodeUpdate_of_whole (fun k => val_main_v6 (F := Ideal) x0 x1 x2 x3 (ix2 r k)) (fun k j => x4 (ix2 k j))
    (fun j => x5 (ix1 j)) (fun j t => x6 (ix2 j t)) (fun t => x7 (ix1 t)) t).trans ?_
  unfold update
  exact nodeUpdate_congr t
    (fun c => cat_band0 _ _ _ concatenates_S50000x64_S50000x64_S50000x64_S50000x192_d1 r c)
    (fun c => cat_band1 _ _ _ concatenates_S50000x64_S50000x64_S50000x64_S50000x192_d1 r c)
    (fun c => cat_band2 _ _ _ concatenates_S50000x64_S50000x64_S50000x64_S50000x192_d1 r c)
    (fun _ _ => rfl) (fun _ _ => rfl) (fun _ _ => rfl) (fun _ => rfl) (fun _ _ => rfl) (fun _ => rfl)

end Cert.ReferenceIdeal.Whole

end
-- ==== Proof.lean ====
/-
  The node update of a message-passing layer, computed two ways, agrees on the extended reals.

  Both programs first sum the edge features per node, once over the edges arriving at the node and once over the edges
  leaving it (the same two scatter-additions, term for term). The reference then joins these two sums and the node
  features into 192 columns and applies a perceptron: 192 → 256 with a bias, maximum with zero, 256 → 64 with a bias.
  The kernel does the same over blocks of 5000 nodes, with the first weight matrix cut into its three bands of 64 rows
  and the first layer computed as three products added up. A sum of 192 products is the sum of its three bands of 64
  (addition of extended reals is commutative and associative), the changes of float format are the identity on the
  ideal values, and a product into a zero accumulator is a plain sum: so the two results are one function of the
  arguments, `MlpSpec.update`, and no finiteness of the inputs is used.

  The three frames are the generated frame runs (the reference's is its generated run with the result dropped); the
  idealization rewrote nothing, so `preserves` is trivial; `algebraic` sets the kernel's run (KernelValue) beside the
  reference's generated run read stage by stage (RefValue).
-/
import proofs.«119274_j71425306132748_1_alg».proof.Defs
import proofs.«119274_j71425306132748_1_alg».proof.Proof.Gen.Kernel
import proofs.«119274_j71425306132748_1_alg».proof.Proof.Gen.Kernel.Skeleton
import proofs.«119274_j71425306132748_1_alg».proof.Proof.Gen.Kernel.Launch
import proofs.«119274_j71425306132748_1_alg».proof.Proof.Gen.Kernel.Points
import proofs.«119274_j71425306132748_1_alg».proof.Proof.Gen.Kernel.Frame
import proofs.«119274_j71425306132748_1_alg».proof.Proof.Gen.KernelIdeal
import proofs.«119274_j71425306132748_1_alg».proof.Proof.Gen.KernelIdeal.Skeleton
import proofs.«119274_j71425306132748_1_alg».proof.Proof.Gen.KernelIdeal.Launch
import proofs.«119274_j71425306132748_1_alg».proof.Proof.Gen.KernelIdeal.Points
import proofs.«119274_j71425306132748_1_alg».proof.Proof.Gen.KernelIdeal.Frame
import proofs.«119274_j71425306132748_1_alg».proof.Proof.Gen.ReferenceIdeal
import proofs.«119274_j71425306132748_1_alg».proof.Proof.Gen.Pre_finite_inputs
import proofs.«119274_j71425306132748_1_alg».proof.Proof.Gen.KernelIdeal.Value
import proofs.«119274_j71425306132748_1_alg».proof.Proof.Gen.ReferenceIdeal.Run
import proofs.«119274_j71425306132748_1_alg».proof.Proof.Gen.ReferenceIdeal.Read
import proofs.«119274_j71425306132748_1_alg».proof.Proof.KernelValue
import proofs.«119274_j71425306132748_1_alg».proof.Proof.RefValue
import Idealize.ShloMosaic.Adequacy
import Idealize.ShloMosaic.Init

noncomputable section

namespace Cert.Proof

open Idealize.ShloMosaic Idealize.SL.Sem Cert.Kernel

/-- The word-level kernel terminates, faults nowhere and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was read at the ideal values. -/
theorem preserves : Cert.preserves_Kernel_KernelIdeal := trivial

/-- From memories that agree on the arguments the kernel's result array ends at the update of every node
    (`KernelIdeal.Whole.run`), and the reference's at its last stage, which is the same update of the same two edge
    sums and the same arguments (`ReferenceIdeal.Whole.ref_is_update`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Whole.ref_is_update]
  obtain ⟨a0, a1, a2, a3, a4, a5, a6, a7⟩ := hagree c
  rw [a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
